-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x32 .f32) (main_arg6 : FVec F S1 .f32) (main_arg7 : FVec F S1x32 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S1x32 .f32 := Host.absf main_arg5
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x32 .f32 := Host.absf main_arg7
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S32x128 .f32) (main_arg3 : FVec F S32 .f32) (main_arg4 : FVec F S32x128 .f32) (main_arg5 : FVec F S1x32 .f32) (main_arg6 : FVec F S1 .f32) (main_arg7 : FVec F S1x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S5000x128 : Shape := ⟨2, ![5000, 128]⟩
abbrev S5000x32 : Shape := ⟨2, ![5000, 32]⟩
abbrev S800000x32 : Shape := ⟨2, ![800000, 32]⟩
abbrev S32x1 : Shape := ⟨2, ![32, 1]⟩
abbrev S1x1 : Shape := ⟨2, ![1, 1]⟩
abbrev S5000x1 : Shape := ⟨2, ![5000, 1]⟩

abbrev nBuf : Space → Nat
  | .hbm => 71
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32, .f32⟩
  | .hbm, ⟨4, _⟩ => ⟨S32x128, .f32⟩
  | .hbm, ⟨5, _⟩ => ⟨S1x32, .f32⟩
  | .hbm, ⟨6, _⟩ => ⟨S1, .f32⟩
  | .hbm, ⟨7, _⟩ => ⟨S1x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x32, .f32⟩
  | .hbm, ⟨38, _⟩ => ⟨S128x32, .f32⟩
  | .hbm, ⟨39, _⟩ => ⟨S1x32, .f32⟩
  | .hbm, ⟨40, _⟩ => ⟨S50000x32, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x32, .f32⟩
  | .hbm, ⟨50, _⟩ => ⟨S_, .f32⟩
  | .hbm, ⟨51, _⟩ => ⟨S50000x32, .f32⟩
  | .hbm, ⟨52, _⟩ => ⟨S800000x1, .i32⟩
  | .hbm, ⟨53, _⟩ => ⟨S50000x32, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x32, .f32⟩
  | .hbm, ⟨65, _⟩ => ⟨S50000x32, .f32⟩
  | .hbm, ⟨66, _⟩ => ⟨S32x1, .f32⟩
  | .hbm, ⟨67, _⟩ => ⟨S32x1, .f32⟩
  | .hbm, ⟨68, _⟩ => ⟨S1x1, .f32⟩
  | .hbm, ⟨69, _⟩ => ⟨S50000x1, .f32⟩
  | .hbm, ⟨70, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S128x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x1, .f32⟩
  | .local _ .vmem, ⟨14, _⟩ => ⟨S1x1, .f32⟩
  | .local _ .vmem, ⟨15, _⟩ => ⟨S32x1, .f32⟩
  | .local _ .vmem, ⟨16, _⟩ => ⟨S5000x1, .f32⟩
  | .local _ .vmem, ⟨17, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  transposes_S1x32_S32x1_1_0 : S1x32.Transposes [1, 0] S32x1
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S50000x32.size a
  hwx0_5 : ∀ i : grid0.Coords, EltTy.bits .f32 = 32 ∨ (Rect.block (s := S50000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S800000x32 : Shape := ⟨2, ![800000, 32]⟩
abbrev S32x1 : Shape := ⟨2, ![32, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32, .f32⟩
  | .hbm, ⟨4, _⟩ => ⟨S32x128, .f32⟩
  | .hbm, ⟨5, _⟩ => ⟨S1x32, .f32⟩
  | .hbm, ⟨6, _⟩ => ⟨S1, .f32⟩
  | .hbm, ⟨7, _⟩ => ⟨S1x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x32, .f32⟩
  | .hbm, ⟨38, _⟩ => ⟨S50000x32, .f32⟩
  | .hbm, ⟨39, _⟩ => ⟨S1x32, .f32⟩
  | .hbm, ⟨40, _⟩ => ⟨S50000x32, .f32⟩
  | .hbm, ⟨41, _⟩ => ⟨S50000x32, .f32⟩
  | .hbm, ⟨42, _⟩ => ⟨S128x32, .f32⟩
  | .hbm, ⟨43, _⟩ => ⟨S50000x32, .f32⟩
  | .hbm, ⟨44, _⟩ => ⟨S50000x32, .f32⟩
  | .hbm, ⟨45, _⟩ => ⟨S_, .f32⟩
  | .hbm, ⟨46, _⟩ => ⟨S50000x32, .f32⟩
  | .hbm, ⟨47, _⟩ => ⟨S50000x32, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x32, .f32⟩
  | .hbm, ⟨57, _⟩ => ⟨S_, .f32⟩
  | .hbm, ⟨58, _⟩ => ⟨S50000x32, .f32⟩
  | .hbm, ⟨59, _⟩ => ⟨S800000x1, .i32⟩
  | .hbm, ⟨60, _⟩ => ⟨S50000x32, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x32, .f32⟩
  | .hbm, ⟨72, _⟩ => ⟨S50000x32, .f32⟩
  | .hbm, ⟨73, _⟩ => ⟨S32x1, .f32⟩
  | .hbm, ⟨74, _⟩ => ⟨S50000x1, .f32⟩
  | .hbm, ⟨75, _⟩ => ⟨S1x1, .f32⟩
  | .hbm, ⟨76, _⟩ => ⟨S50000x1, .f32⟩
  | .hbm, ⟨77, _⟩ => ⟨S50000x1, .f32⟩
  | .hbm, ⟨78, _⟩ => ⟨S32x1, .f32⟩
  | .hbm, ⟨79, _⟩ => ⟨S50000x1, .f32⟩
  | .hbm, ⟨80, _⟩ => ⟨S50000x1, .f32⟩
  | .hbm, ⟨81, _⟩ => ⟨S50000x1, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x32_S50000x32_1_0_0_1_n_n_wf : DotDims.WF S50000x128 S128x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x1_S50000x1_1_0_0_1_n_n_wf : DotDims.WF S50000x32 S32x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KBody0.lean ====
/-
  One block of the first dense stage, entry by entry.

  At a grid point the body holds a [5000, 128] block of the neighbour means and of the features, the two
  [128, 32] weight matrices and the [1, 32] bias row, and stores
      max (means · wl + features · wr + bias) 0
  over the [5000, 32] block. Read on the extended reals, each product entry (p, q) is the sum over the 128 shared
  coordinates (the narrowing of the operands to bf16 is the identity there, and the accumulator starts at zero), so the
  stored entry is  max (Σₖ means[p,k]·wl[k,q] + Σₖ features[p,k]·wr[k,q] + bias[0,q]) 0.
-/
import proofs.«100326_j90563680403608_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Dense0

open Cert.KernelIdeal Cert.KernelIdeal.Gen Idealize.ShloMosaic Idealize.ShloMosaic.ValueIdx

/-! ## Which operand entries a product entry reads -/

theorem lhs_blk_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_blk_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem rhs_blk_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem rhs_blk_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A block product into the zero accumulator, at row `p` and column `q`: the sum over the shared coordinate. -/
theorem blockDot_apply {φ₁ φ₂ : FTy} (l : FVec Ideal S5000x128 φ₁) (r : FVec Ideal S128x32 φ₂) (p : Fin 5000) (q : Fin 32) :
    matmul dot_S5000x128_S128x32_S5000x32_1_0_0_1_n_n none l r (constant S5000x32 .f32 0x00000000#32) (ix2 p q)
      = ∑ k : Fin 128, l (ix2 p k) * r (ix2 k q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The bias row spread over the block's rows, at (p, q): the row's entry q. -/
theorem biasRow_apply (b : Vec Ideal S1x32 .f32) (hc : S1x32.ShapeCasts S1x32) (hb : S1x32.Broadcasts S5000x32)
    (p : Fin 5000) (q : Fin 32) :
    broadcastTo S5000x32 (shapeCast S1x32 b hc) hb (ix2 p q) = b (ix2 (0 : Fin 1) q) := by
  rw [shapeCast_self]
  exact broadcastTo_apply b hb (ix2 p q) (ix2 (0 : Fin 1) q) (fun a => match a with
    | ⟨0, _⟩ => rfl
    | ⟨1, _⟩ => rfl)

/-- The stored block at (p, q). -/
theorem pay_apply (x0 x1 : Vec Ideal S5000x128 .f32) (w0 w1 : Vec Ideal S128x32 .f32) (b : Vec Ideal S1x32 .f32)
    (p : Fin 5000) (q : Fin 32) :
    k0_pay1 (F := Ideal) x0 x1 w0 w1 b (ix2 p q)
      = max ((∑ k : Fin 128, x0 (ix2 p k) * w0 (ix2 k q)) + (∑ k : Fin 128, x1 (ix2 p k) * w1 (ix2 k q))
          + b (ix2 (0 : Fin 1) q)) 0 := by
  unfold k0_pay1
  rw [maximumf_apply, addf_apply, addf_apply, blockDot_apply, blockDot_apply, biasRow_apply, broadcast_apply]
  simp only [truncf_apply, shapeCast_self]
  exact congrArg (max _) Ideal.ofBits_zero_f32

end Cert.KernelIdeal.Dense0

end
-- ==== Proof.Spec.lean ====
/-
  The two dense stages of a two-layer neighbour-mean graph convolution, each as ONE whole-array function read
  index by index on the extended reals.

  Stage one, at row `r` and column `j`:  max (Σₖ mean[r,k]·wl[k,j] + Σₖ x[r,k]·wr[k,j] + b[0,j]) 0.
  Stage two, at row `r`:                  logistic (Σₖ mean[r,k]·wl[k,0] + Σₖ h[r,k]·wr[k,0] + b[0,0]).

  The weights enter already transposed ([in, out]) and the bias as a one-row matrix, which is how both programs
  hold them when the stage runs. A program that adds the bias between the two products instead of after them
  computes the same entry: addition of extended reals is commutative and associative, infinities included
  (`add_right_comm`), so no finiteness is needed.
-/
import Idealize.ShloMosaic.PureOps.Ideal
import Idealize.ShloMosaic.Lib.ValueIdx

noncomputable section

namespace Cert.Sage

open Idealize.ShloMosaic Idealize.ShloMosaic.ValueIdx

/-- Entry (r, j) of the first stage: the rectified sum of the two products and the bias. -/
def hiddenAt (mean x : FVec Ideal ⟨2, ![50000, 128]⟩ .f32) (wl wr : FVec Ideal ⟨2, ![128, 32]⟩ .f32)
    (b : FVec Ideal ⟨2, ![1, 32]⟩ .f32) (r : Fin 50000) (j : Fin 32) : EReal :=
  max ((∑ k : Fin 128, mean (ix2 r k) * wl (ix2 k j)) + (∑ k : Fin 128, x (ix2 r k) * wr (ix2 k j))
    + b (ix2 (0 : Fin 1) j)) 0

/-- The first stage as an array [50000, 32]. -/
def hidden (mean x : FVec Ideal ⟨2, ![50000, 128]⟩ .f32) (wl wr : FVec Ideal ⟨2, ![128, 32]⟩ .f32)
    (b : FVec Ideal ⟨2, ![1, 32]⟩ .f32) : FVec Ideal ⟨2, ![50000, 32]⟩ .f32 :=
  fun i => hiddenAt mean x wl wr b (i 0) (i 1)

theorem hidden_ix2 (mean x : FVec Ideal ⟨2, ![50000, 128]⟩ .f32) (wl wr : FVec Ideal ⟨2, ![128, 32]⟩ .f32)
    (b : FVec Ideal ⟨2, ![1, 32]⟩ .f32) (r : Fin 50000) (j : Fin 32) :
    hidden mean x wl wr b (ix2 r j) = hiddenAt mean x wl wr b r j := rfl

/-- Entry r of the second stage: the logistic function of the sum of the two products and the bias. -/
def scoreAt (mean h : FVec Ideal ⟨2, ![50000, 32]⟩ .f32) (wl wr : FVec Ideal ⟨2, ![32, 1]⟩ .f32)
    (b : FVec Ideal ⟨2, ![1, 1]⟩ .f32) (r : Fin 50000) : EReal :=
  Ideal.logistic ((∑ k : Fin 32, mean (ix2 r k) * wl (ix2 k (0 : Fin 1)))
    + (∑ k : Fin 32, h (ix2 r k) * wr (ix2 k (0 : Fin 1))) + b (ix2 (0 : Fin 1) (0 : Fin 1)))

/-- The second stage as an array [50000, 1]. -/
def score (mean h : FVec Ideal ⟨2, ![50000, 32]⟩ .f32) (wl wr : FVec Ideal ⟨2, ![32, 1]⟩ .f32)
    (b : FVec Ideal ⟨2, ![1, 1]⟩ .f32) : FVec Ideal ⟨2, ![50000, 1]⟩ .f32 :=
  fun i => scoreAt mean h wl wr b (i 0)

theorem score_ix2 (mean h : FVec Ideal ⟨2, ![50000, 32]⟩ .f32) (wl wr : FVec Ideal ⟨2, ![32, 1]⟩ .f32)
    (b : FVec Ideal ⟨2, ![1, 1]⟩ .f32) (r : Fin 50000) (q : Fin 1) :
    score mean h wl wr b (ix2 r q) = scoreAt mean h wl wr b r := rfl

end Cert.Sage

end
-- ==== Proof.KArr0.lean ====
/-
  The array the first dense stage leaves: every block is a block of ONE function of the whole arrays.

  The grid has ten points; point t holds rows 5000·t … 5000·t + 4999 of the neighbour means and of the features, the
  whole of both weight matrices and of the bias row, and writes rows 5000·t … of the [50000, 32] result. An entry
  (p, q) of the block a point stores reads row p of its two row blocks, so it is entry (5000·t + p, q) of
  `Cert.Sage.hidden` of the whole arrays; the ten row blocks tile the result, row r lying in block r / 5000.
  All of it is stated at ANY contents `V` of the buffers when the stage is entered.
-/
import proofs.«100326_j90563680403608_1_alg».proof.Proof.Gen.KernelIdeal.Frame
import proofs.«100326_j90563680403608_1_alg».proof.Proof.KBody0
import proofs.«100326_j90563680403608_1_alg».proof.Proof.Spec
import Idealize.ShloMosaic.Lib.Pipeline.Value

set_option maxRecDepth 16384

noncomputable section

namespace Cert.KernelIdeal.Dense0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output along the rows, every
    other block index is zero, and the output's row-block index stays below ten. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- Row `p` of point `t`'s block, as a row of the whole array. -/
def row (t : Fin cfg0.N) (p : Fin 5000) : Fin 50000 :=
  ⟨win0_5.index t (0 : Fin 2) * 5000 + p.val, by
    have h := (idx_facts t).2.2.2.2.2.2.2.2.2.2.1
    have hp := p.isLt
    omega⟩

/-! ## Each window's block read at an entry -/

theorem read0 (c : Dev nD) (t : Fin cfg0.N) (p : Fin 5000) (k : Fin 128) :
    iblk0 V c 0 t (ix2 p k) = V c main_v22 (ix2 (row t p) k) := by
  show V c main_v22 (((cfg0.win 0).blk t).view.emb (ix2 p k)) = V c main_v22 (ix2 (row t p) k)
  refine congrArg (V c main_v22) (funext fun a => Fin.ext ?_)
  obtain ⟨e0, e1, -⟩ := idx_facts t
  match a with
  | ⟨0, _⟩ => show win0_0.index t (0 : Fin 2) * 5000 + 1 * p.val = win0_5.index t (0 : Fin 2) * 5000 + p.val; omega
  | ⟨1, _⟩ => show win0_0.index t (1 : Fin 2) * 128 + 1 * k.val = k.val; omega

theorem read1 (c : Dev nD) (t : Fin cfg0.N) (p : Fin 5000) (k : Fin 128) :
    iblk0 V c 1 t (ix2 p k) = V c main_arg0 (ix2 (row t p) k) := by
  show V c main_arg0 (((cfg0.win 1).blk t).view.emb (ix2 p k)) = V c main_arg0 (ix2 (row t p) k)
  refine congrArg (V c main_arg0) (funext fun a => Fin.ext ?_)
  obtain ⟨-, -, e0, e1, -⟩ := idx_facts t
  match a with
  | ⟨0, _⟩ => show win0_1.index t (0 : Fin 2) * 5000 + 1 * p.val = win0_5.index t (0 : Fin 2) * 5000 + p.val; omega
  | ⟨1, _⟩ => show win0_1.index t (1 : Fin 2) * 128 + 1 * k.val = k.val; omega

theorem read2 (c : Dev nD) (t : Fin cfg0.N) (k : Fin 128) (q : Fin 32) :
    iblk0 V c 2 t (ix2 k q) = V c main_v23 (ix2 k q) := by
  show V c main_v23 (((cfg0.win 2).blk t).view.emb (ix2 k q)) = V c main_v23 (ix2 k q)
  refine congrArg (V c main_v23) (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 32 + 1 * q.val = q.val; omega

theorem read3 (c : Dev nD) (t : Fin cfg0.N) (q : Fin 32) :
    iblk0 V c 3 t (ix2 (0 : Fin 1) q) = V c main_v25 (ix2 (0 : Fin 1) q) := by
  show V c main_v25 (((cfg0.win 3).blk t).view.emb (ix2 (0 : Fin 1) q)) = V c main_v25 (ix2 (0 : Fin 1) q)
  refine congrArg (V c main_v25) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 32 + 1 * q.val = q.val; omega

theorem read4 (c : Dev nD) (t : Fin cfg0.N) (k : Fin 128) (q : Fin 32) :
    iblk0 V c 4 t (ix2 k q) = V c main_v24 (ix2 k q) := by
  show V c main_v24 (((cfg0.win 4).blk t).view.emb (ix2 k q)) = V c main_v24 (ix2 k q)
  refine congrArg (V c main_v24) (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 32 + 1 * q.val = q.val; omega

/-- Entry (p, q) of the output's block at point `t` is entry (row t p, q) of the array. -/
theorem emb5 (t : Fin cfg0.N) (p : Fin 5000) (q : Fin 32) :
    ((cfg0.win 5).blk t).view.emb (ix2 p q) = ix2 (row t p) q := by
  refine funext fun a => Fin.ext ?_
  obtain ⟨-, -, -, -, -, -, -, -, -, -, -, e1⟩ := idx_facts t
  match a with
  | ⟨0, _⟩ => show win0_5.index t (0 : Fin 2) * 5000 + 1 * p.val = win0_5.index t (0 : Fin 2) * 5000 + p.val; omega
  | ⟨1, _⟩ => show win0_5.index t (1 : Fin 2) * 32 + 1 * q.val = q.val; omega

/-! ## What a point writes back, and the cover -/

/-- What point `t` writes back is block `t` of the first dense stage of the arrays as the stage finds them. -/
theorem flushed_eq (c : Dev nD) (t : Fin cfg0.N) :
    (dat0 V c).flushed 5 t = ((cfg0.win 5).blk t).view.read (Elt Ideal)
      (Cert.Sage.hidden (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x32) hz, View.ld_unit_zero (S := S1x32) hz]
  funext j
  obtain ⟨p, q, rfl⟩ : ∃ (p : Fin 5000) (q : Fin 32), j = ix2 p q := ⟨j 0, j 1, eq_ix2 j⟩
  refine (pay_apply (iblk0 V c 0 t) (iblk0 V c 1 t) (iblk0 V c 2 t) (iblk0 V c 4 t) (iblk0 V c 3 t) p q).trans ?_
  rw [View.read_apply, emb5, Cert.Sage.hidden_ix2]
  unfold Cert.Sage.hiddenAt
  simp only [read0 V c t, read1 V c t, read2 V c t, read3 V c t, read4 V c t]
  exact (cast_eq _ _).symm

/-- An index of the array is in point `t`'s block iff each coordinate is in the block's range on its axis. -/
theorem mem_blk (t : Fin cfg0.N) (i : S50000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v26).slice (win0_5.rect t)).set ↔ _
  rw [View.set_slice_whole, Rect.mem_set_unit]
  exact Iff.rfl

/-- Every index of the array lies in the block of the point whose row-block index is its row divided by 5000. -/
theorem cover (i : S50000x32.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 32 ≤ (i 1).val ∧ (i 1).val < win0_5.index t (1 : Fin 2) * 32 + 32; omega

/-- THE ARRAY after the stage: the first dense stage of the arrays as the stage finds them. -/
theorem array_eq (c : Dev nD) :
    (dat0 V c).arrAt 5 cfg0.N
      = Cert.Sage.hidden (V c main_v22) (V c main_arg0) (V c main_v23) (V c main_v24) (V c main_v25) :=
  (dat0 V c).arrAt_eq_of_cover 5 _ (fun t _ => flushed_eq V c t) cover

end Cert.KernelIdeal.Dense0

end
-- ==== Proof.KBody1.lean ====
/-
  One block of the second dense stage, entry by entry.

  At a grid point the body holds a [5000, 32] block of the neighbour means of the hidden features and of the hidden
  features, the two [32, 1] weight columns and the [1, 1] bias, and stores
      logistic (means · wl + hidden · wr + bias)
  over the [5000, 1] block. Read on the extended reals each product entry is the sum over the 32 shared coordinates,
  so the stored entry p is  logistic (Σₖ means[p,k]·wl[k,0] + Σₖ hidden[p,k]·wr[k,0] + bias[0,0]).
-/
import proofs.«100326_j90563680403608_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Dense1

open Cert.KernelIdeal Cert.KernelIdeal.Gen Idealize.ShloMosaic Idealize.ShloMosaic.ValueIdx

/-! ## Which operand entries a product entry reads -/

theorem lhs_blk_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs_blk_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_blk_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_blk_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- A block product into the zero accumulator, at row `p` (and the one column `q`): the sum over the shared coordinate. -/
theorem blockDot_apply {φ₁ φ₂ : FTy} (l : FVec Ideal S5000x32 φ₁) (r : FVec Ideal S32x1 φ₂) (p : Fin 5000) (q : Fin 1) :
    matmul dot_S5000x32_S32x1_S5000x1_1_0_0_1_n_n none l r (constant S5000x1 .f32 0x00000000#32) (ix2 p q)
      = ∑ k : Fin 32, l (ix2 p k) * r (ix2 k q) := by
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k := funext fun a => Fin.ext (by
    match a with
    | ⟨0, _⟩ => exact lhs_blk_0 _ _
    | ⟨1, _⟩ => exact (lhs_blk_1 _ _).trans hk)
  have er : dot_S5000x32_S32x1_S5000x1_1_0_0_1_n_n.rhsIdx (ix2 p q) ((contrEquiv1 dot_S5000x32_S32x1_S5000x1_1_0_0_1_n_n 32 rfl rfl).symm k) = ix2 k q := funext fun a => Fin.ext (by
    match a with
    | ⟨0, _⟩ => exact (rhs_blk_0 _ _).trans hk
    | ⟨1, _⟩ => exact rhs_blk_1 _ _)
  rw [el, er]

/-- The one bias entry spread over the block, at any entry: that entry. -/
theorem bias_apply (b : Vec Ideal S1x1 .f32) (hc : S1x1.ShapeCasts S1x1) (hb : S1x1.Broadcasts S5000x1)
    (p : Fin 5000) (q : Fin 1) :
    broadcastTo S5000x1 (shapeCast S1x1 b hc) hb (ix2 p q) = b (ix2 (0 : Fin 1) (0 : Fin 1)) := by
  rw [shapeCast_self]
  exact broadcastTo_apply b hb (ix2 p q) (ix2 (0 : Fin 1) (0 : Fin 1)) (fun a => match a with
    | ⟨0, _⟩ => rfl
    | ⟨1, _⟩ => rfl)

/-- The stored block at row `p`. -/
theorem pay_apply (x0 x1 : Vec Ideal S5000x32 .f32) (w0 w1 : Vec Ideal S32x1 .f32) (b : Vec Ideal S1x1 .f32)
    (p : Fin 5000) (q : Fin 1) :
    k1_pay1 (F := Ideal) x0 x1 w0 w1 b (ix2 p q)
      = Ideal.logistic ((∑ k : Fin 32, x0 (ix2 p k) * w0 (ix2 k q)) + (∑ k : Fin 32, x1 (ix2 p k) * w1 (ix2 k q))
          + b (ix2 (0 : Fin 1) (0 : Fin 1))) := by
  unfold k1_pay1
  refine congrArg Ideal.logistic ?_
  rw [addf_apply, addf_apply, blockDot_apply, blockDot_apply, bias_apply]
  simp only [truncf_apply, shapeCast_self]

end Cert.KernelIdeal.Dense1

end
-- ==== Proof.KArr1.lean ====
/-
  The array the second dense stage leaves: every block is a block of ONE function of the whole arrays.

  The grid has ten points; point t holds rows 5000·t … 5000·t + 4999 of the neighbour means of the hidden features
  and of the hidden features, the whole of both weight columns and the bias, and writes rows 5000·t … of the
  [50000, 1] result. Entry p of the block a point stores reads row p of its two row blocks, so it is entry
  5000·t + p of `Cert.Sage.score` of the whole arrays; the ten row blocks tile the result.
  All of it is stated at ANY contents `V` of the buffers when the stage is entered.
-/
import proofs.«100326_j90563680403608_1_alg».proof.Proof.Gen.KernelIdeal.Frame
import proofs.«100326_j90563680403608_1_alg».proof.Proof.KBody1
import proofs.«100326_j90563680403608_1_alg».proof.Proof.Spec
import Idealize.ShloMosaic.Lib.Pipeline.Value

set_option maxRecDepth 16384

noncomputable section

namespace Cert.KernelIdeal.Dense1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output along the rows, every
    other block index is zero, and the output's row-block index stays below ten. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- Row `p` of point `t`'s block, as a row of the whole array. -/
def row (t : Fin cfg1.N) (p : Fin 5000) : Fin 50000 :=
  ⟨win1_5.index t (0 : Fin 2) * 5000 + p.val, by
    have h := (idx_facts t).2.2.2.2.2.2.2.2.2.2.1
    have hp := p.isLt
    omega⟩

/-! ## Each window's block read at an entry -/

theorem read0 (c : Dev nD) (t : Fin cfg1.N) (p : Fin 5000) (k : Fin 32) :
    iblk1 V c 0 t (ix2 p k) = V c main_v45 (ix2 (row t p) k) := by
  show V c main_v45 (((cfg1.win 0).blk t).view.emb (ix2 p k)) = V c main_v45 (ix2 (row t p) k)
  refine congrArg (V c main_v45) (funext fun a => Fin.ext ?_)
  obtain ⟨e0, e1, -⟩ := idx_facts t
  match a with
  | ⟨0, _⟩ => show win1_0.index t (0 : Fin 2) * 5000 + 1 * p.val = win1_5.index t (0 : Fin 2) * 5000 + p.val; omega
  | ⟨1, _⟩ => show win1_0.index t (1 : Fin 2) * 32 + 1 * k.val = k.val; omega

theorem read1 (c : Dev nD) (t : Fin cfg1.N) (p : Fin 5000) (k : Fin 32) :
    iblk1 V c 1 t (ix2 p k) = V c main_v26 (ix2 (row t p) k) := by
  show V c main_v26 (((cfg1.win 1).blk t).view.emb (ix2 p k)) = V c main_v26 (ix2 (row t p) k)
  refine congrArg (V c main_v26) (funext fun a => Fin.ext ?_)
  obtain ⟨-, -, e0, e1, -⟩ := idx_facts t
  match a with
  | ⟨0, _⟩ => show win1_1.index t (0 : Fin 2) * 5000 + 1 * p.val = win1_5.index t (0 : Fin 2) * 5000 + p.val; omega
  | ⟨1, _⟩ => show win1_1.index t (1 : Fin 2) * 32 + 1 * k.val = k.val; omega

theorem read2 (c : Dev nD) (t : Fin cfg1.N) (k : Fin 32) (q : Fin 1) :
    iblk1 V c 2 t (ix2 k q) = V c main_v46 (ix2 k q) := by
  show V c main_v46 (((cfg1.win 2).blk t).view.emb (ix2 k q)) = V c main_v46 (ix2 k q)
  refine congrArg (V c main_v46) (funext fun a => Fin.ext ?_)
  obtain ⟨-, -, -, -, e0, e1, -⟩ := idx_facts t
  match a with
  | ⟨0, _⟩ => show win1_2.index t (0 : Fin 2) * 32 + 1 * k.val = k.val; omega
  | ⟨1, _⟩ => show win1_2.index t (1 : Fin 2) * 1 + 1 * q.val = q.val; omega

theorem read3 (c : Dev nD) (t : Fin cfg1.N) :
    iblk1 V c 3 t (ix2 (0 : Fin 1) (0 : Fin 1)) = V c main_v48 (ix2 (0 : Fin 1) (0 : Fin 1)) := by
  show V c main_v48 (((cfg1.win 3).blk t).view.emb (ix2 (0 : Fin 1) (0 : Fin 1))) = V c main_v48 (ix2 (0 : Fin 1) (0 : Fin 1))
  refine congrArg (V c main_v48) (funext fun a => Fin.ext ?_)
  obtain ⟨-, -, -, -, -, -, e0, e1, -⟩ := idx_facts t
  match a with
  | ⟨0, _⟩ => show win1_3.index t (0 : Fin 2) * 1 + 1 * 0 = 0; omega
  | ⟨1, _⟩ => show win1_3.index t (1 : Fin 2) * 1 + 1 * 0 = 0; omega

theorem read4 (c : Dev nD) (t : Fin cfg1.N) (k : Fin 32) (q : Fin 1) :
    iblk1 V c 4 t (ix2 k q) = V c main_v47 (ix2 k q) := by
  show V c main_v47 (((cfg1.win 4).blk t).view.emb (ix2 k q)) = V c main_v47 (ix2 k q)
  refine congrArg (V c main_v47) (funext fun a => Fin.ext ?_)
  obtain ⟨-, -, -, -, -, -, -, -, e0, e1, -⟩ := idx_facts t
  match a with
  | ⟨0, _⟩ => show win1_4.index t (0 : Fin 2) * 32 + 1 * k.val = k.val; omega
  | ⟨1, _⟩ => show win1_4.index t (1 : Fin 2) * 1 + 1 * q.val = q.val; omega

/-- Entry (p, q) of the output's block at point `t` is entry (row t p, q) of the array. -/
theorem emb5 (t : Fin cfg1.N) (p : Fin 5000) (q : Fin 1) :
    ((cfg1.win 5).blk t).view.emb (ix2 p q) = ix2 (row t p) q := by
  refine funext fun a => Fin.ext ?_
  obtain ⟨-, -, -, -, -, -, -, -, -, -, -, e1⟩ := idx_facts t
  match a with
  | ⟨0, _⟩ => show win1_5.index t (0 : Fin 2) * 5000 + 1 * p.val = win1_5.index t (0 : Fin 2) * 5000 + p.val; omega
  | ⟨1, _⟩ => show win1_5.index t (1 : Fin 2) * 1 + 1 * q.val = q.val; omega

/-! ## What a point writes back, and the cover -/

/-- What point `t` writes back is block `t` of the second dense stage of the arrays as the stage finds them. -/
theorem flushed_eq (c : Dev nD) (t : Fin cfg1.N) :
    (dat1 V c).flushed 5 t = ((cfg1.win 5).blk t).view.read (Elt Ideal)
      (Cert.Sage.score (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x1) hz, View.ld_unit_zero (S := S1x1) hz]
  funext j
  obtain ⟨p, q, rfl⟩ : ∃ (p : Fin 5000) (q : Fin 1), j = ix2 p q := ⟨j 0, j 1, eq_ix2 j⟩
  obtain rfl : q = (0 : Fin 1) := Subsingleton.elim _ _
  refine (pay_apply (iblk1 V c 0 t) (iblk1 V c 1 t) (iblk1 V c 2 t) (iblk1 V c 4 t) (iblk1 V c 3 t) p 0).trans ?_
  rw [View.read_apply, emb5, Cert.Sage.score_ix2]
  unfold Cert.Sage.scoreAt
  simp only [read0 V c t, read1 V c t, read2 V c t, read3 V c t, read4 V c t]
  exact (cast_eq _ _).symm

/-- An index of the array is in point `t`'s block iff each coordinate is in the block's range on its axis. -/
theorem mem_blk (t : Fin cfg1.N) (i : S50000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v49).slice (win1_5.rect t)).set ↔ _
  rw [View.set_slice_whole, Rect.mem_set_unit]
  exact Iff.rfl

/-- Every index of the array lies in the block of the point whose row-block index is its row divided by 5000. -/
theorem cover (i : S50000x1.Idx) :
    ∃ t : Fin cfg1.N, (cfg1.win 5).flush t = true ∧ i ∈ ((cfg1.win 5).blk t).view.set := by
  have hi0 : (i 0).val < 50000 := (i 0).isLt
  have hi1 : (i 1).val < 1 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- THE ARRAY after the stage: the second dense stage of the arrays as the stage finds them. -/
theorem array_eq (c : Dev nD) :
    (dat1 V c).arrAt 5 cfg1.N
      = Cert.Sage.score (V c main_v45) (V c main_v26) (V c main_v46) (V c main_v47) (V c main_v48) :=
  (dat1 V c).arrAt_eq_of_cover 5 _ (fun t _ => flushed_eq V c t) cover

end Cert.KernelIdeal.Dense1

end
-- ==== Proof.KHost.lean ====
/-
  The kernel program's result as the two dense stages over the two neighbour means.

  Between the launch and the return the program runs: a host stretch (the edge rows, the neighbour mean of the
  features, the transposed first-layer weights, the bias as a row), the first dense stage, a second host stretch (the
  neighbour mean of the hidden features the stage left, the transposed second-layer weights, the bias as a 1×1 matrix),
  the second dense stage, and a last flattening. Each buffer a stage reads is read here off the contents at the
  stage's entry as a term of the launch arrays; each stage's array is the specification's function of those
  (stated at any entry contents, instantiated here); so the result buffer ends at
      flatten (score (mean2 H e) H w2lᵀ w2rᵀ b2)   with   H = hidden (mean1 x e) x w1lᵀ w1rᵀ b1.
  The two means are closed terms of gathers and scatter-adds that nothing here opens.
-/
import proofs.«100326_j90563680403608_1_alg».proof.Proof.Gen.KernelIdeal.Frame
import proofs.«100326_j90563680403608_1_alg».proof.Proof.KArr0
import proofs.«100326_j90563680403608_1_alg».proof.Proof.KArr1
import proofs.«100326_j90563680403608_1_alg».proof.Proof.Spec
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

/-- The mean over each node's incoming edges of the [50000, 128] table `x`: rows gathered by source, summed by
    destination, divided by the in-degree or by one where there is no edge. -/
def mean1 (x : FVec Ideal S50000x128 .f32) (e : IVec S2x800000 32) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

/-- The same mean of the [50000, 32] table `h`. -/
def mean2 (h : FVec Ideal S50000x32 .f32) (e : IVec S2x800000 32) : FVec Ideal S50000x32 .f32 :=
  Host.divf (Host.scatterAdd scatter_S50000x32_S800000x1_S800000x32_1_0_0_1 (broadcastInDim S50000x32 ![] bcast_S_S50000x32 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x32_S800000x1_S800000x32_1_0_n_n_0_1_132 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x32 ![0, 1] bcast_S50000x1_S50000x32_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

/-- The hidden features: the first dense stage over the mean of `x` and `x` itself. -/
def hid (x : FVec Ideal S50000x128 .f32) (e : IVec S2x800000 32) (w1l : FVec Ideal S32x128 .f32) (b1 : FVec Ideal S32 .f32)
    (w1r : FVec Ideal S32x128 .f32) : FVec Ideal S50000x32 .f32 :=
  Cert.Sage.hidden (mean1 x e) x (transpose S128x32 [1, 0] w1l transposes_S32x128_S128x32_1_0)
    (transpose S128x32 [1, 0] w1r transposes_S32x128_S128x32_1_0) (shapeCast S1x32 b1 shapeCasts_S32_S1x32)

variable (m : (ℓ : Loc nD τ sig) → Buf (Elt Ideal) ℓ) (ρ : Dev nD → PrngReg)

/-! ## The buffers the first stage reads, at its entry -/

set_option maxHeartbeats 8000000 in
theorem in0_mean (c : Dev nD) : W1 m ρ c (Proc.devRef .tc main_v22) = mean1 (m ((c : Thread nD τ).loc main_arg0)) (m ((c : Thread nD τ).loc main_arg1)) := by
  show StableHlo.after hostOps0 (W0 m ρ c) (Proc.devRef .tc main_v22) = _
  after_results_simp <;> rfl
theorem in0_x (c : Dev nD) : W1 m ρ c (Proc.devRef .tc main_arg0) = (m ((c : Thread nD τ).loc main_arg0)) := by
  show StableHlo.after hostOps0 (W0 m ρ c) (Proc.devRef .tc main_arg0) = _
  after_results_simp <;> rfl
theorem in0_wl (c : Dev nD) : W1 m ρ c (Proc.devRef .tc main_v23) = transpose S128x32 [1, 0] (m ((c : Thread nD τ).loc main_arg2)) transposes_S32x128_S128x32_1_0 := by
  show StableHlo.after hostOps0 (W0 m ρ c) (Proc.devRef .tc main_v23) = _
  after_results_simp <;> rfl
theorem in0_wr (c : Dev nD) : W1 m ρ c (Proc.devRef .tc main_v24) = transpose S128x32 [1, 0] (m ((c : Thread nD τ).loc main_arg4)) transposes_S32x128_S128x32_1_0 := by
  show StableHlo.after hostOps0 (W0 m ρ c) (Proc.devRef .tc main_v24) = _
  after_results_simp <;> rfl
theorem in0_b (c : Dev nD) : W1 m ρ c (Proc.devRef .tc main_v25) = shapeCast S1x32 (m ((c : Thread nD τ).loc main_arg3)) shapeCasts_S32_S1x32 := by
  show StableHlo.after hostOps0 (W0 m ρ c) (Proc.devRef .tc main_v25) = _
  after_results_simp <;> rfl

/-- The first stage leaves the hidden features. -/
theorem hidden_eq (c : Dev nD) :
    (dat0 (V1 m ρ) c).arrAt 5 cfg0.N = hid (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.Dense0.array_eq (V1 m ρ) c]
  show Cert.Sage.hidden (W1 m ρ c (Proc.devRef .tc main_v22)) (W1 m ρ c (Proc.devRef .tc main_arg0)) (W1 m ρ c (Proc.devRef .tc main_v23))
      (W1 m ρ c (Proc.devRef .tc main_v24)) (W1 m ρ c (Proc.devRef .tc main_v25)) = _
  rw [in0_mean, in0_x, in0_wl, in0_wr, in0_b]
  rfl

/-! ## The buffers the second stage reads, at its entry -/

/-- The edge sources' row survives the first stage: it is no array of that stage. -/
theorem src_kept (c : Dev nD) : W2 m ρ c (Proc.devRef .tc main_v1)
    = shapeCast _ (extractStridedSlice S1x800000 ![0, 0] (m ((c : Thread nD τ).loc main_arg1)) slices_S2x800000_S1x800000_0_0) shapeCasts_S1x800000_S800000 := by
  rw [W2_of_ne m ρ c main_v1 (by decide)]
  show StableHlo.after hostOps0 (W0 m ρ c) (Proc.devRef .tc main_v1) = _
  after_results_simp <;> rfl
/-- So does the edge destinations' row. -/
theorem dst_kept (c : Dev nD) : W2 m ρ c (Proc.devRef .tc main_v3)
    = shapeCast _ (extractStridedSlice S1x800000 ![1, 0] (m ((c : Thread nD τ).loc main_arg1)) slices_S2x800000_S1x800000_1_0) shapeCasts_S1x800000_S800000 := by
  rw [W2_of_ne m ρ c main_v3 (by decide)]
  show StableHlo.after hostOps0 (W0 m ρ c) (Proc.devRef .tc main_v3) = _
  after_results_simp <;> rfl
/-- An argument array no stretch and no stage has written is as launched. -/
theorem arg5_kept (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl
theorem arg6_kept (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl
theorem arg7_kept (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl
/-- The first stage's result buffer holds the hidden features. -/
theorem h_left (c : Dev nD) : W2 m ρ c (Proc.devRef .tc main_v26) = (hid (m ((c : Thread nD τ).loc main_arg0)) (m ((c : Thread nD τ).loc main_arg1)) (m ((c : Thread nD τ).loc main_arg2)) (m ((c : Thread nD τ).loc main_arg3)) (m ((c : Thread nD τ).loc main_arg4))) :=
  (W2_arr m ρ c 5).trans (hidden_eq m ρ c)

set_option maxHeartbeats 8000000 in
theorem in1_mean (c : Dev nD) : W3 m ρ c (Proc.devRef .tc main_v45) = mean2 (hid (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v45) = _
  after_results_simp
  rw [src_kept, dst_kept, h_left]
  rfl
theorem in1_h (c : Dev nD) : W3 m ρ c (Proc.devRef .tc main_v26) = (hid (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v26) = _
  after_results_simp
  exact h_left m ρ c
theorem in1_wl (c : Dev nD) : W3 m ρ c (Proc.devRef .tc main_v46) = transpose S32x1 [1, 0] (m ((c : Thread nD τ).loc main_arg5)) transposes_S1x32_S32x1_1_0 := by
  show StableHlo.after hostOps1 (W2 m ρ c) (Proc.devRef .tc main_v46) = _
  after_results_simp
  rw [arg5_kept]
theorem in1_wr (c : Dev nD) : W3 m ρ c (Proc.devRef .tc main_v47) = transpose S32x1 [1, 0] (m ((c : Thread nD τ).loc main_arg7)) transposes_S1x32_S32x1_1_0 := by
  show StableHlo.after hostOps1 (W2 m ρ c) (Proc.devRef .tc main_v47) = _
  after_results_simp
  rw [arg7_kept]
theorem in1_b (c : Dev nD) : W3 m ρ c (Proc.devRef .tc main_v48) = shapeCast S1x1 (m ((c : Thread nD τ).loc main_arg6)) shapeCasts_S1_S1x1 := by
  show StableHlo.after hostOps1 (W2 m ρ c) (Proc.devRef .tc main_v48) = _
  after_results_simp
  rw [arg6_kept]
  rfl

/-- The second stage leaves the scores. -/
theorem score_eq (c : Dev nD) :
    (dat1 (V3 m ρ) c).arrAt 5 cfg1.N
      = Cert.Sage.score (mean2 (hid (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))) (hid (m ((c : Thread nD τ).loc main_arg0)) (m ((c : Thread nD τ).loc main_arg1)) (m ((c : Thread nD τ).loc main_arg2)) (m ((c : Thread nD τ).loc main_arg3)) (m ((c : Thread nD τ).loc main_arg4)))
          (transpose S32x1 [1, 0] (m ((c : Thread nD τ).loc main_arg5)) transposes_S1x32_S32x1_1_0) (transpose S32x1 [1, 0] (m ((c : Thread nD τ).loc main_arg7)) transposes_S1x32_S32x1_1_0)
          (shapeCast S1x1 (m ((c : Thread nD τ).loc main_arg6)) shapeCasts_S1_S1x1) := by
  rw [Cert.KernelIdeal.Dense1.array_eq (V3 m ρ) c]
  show Cert.Sage.score (W3 m ρ c (Proc.devRef .tc main_v45)) (W3 m ρ c (Proc.devRef .tc main_v26)) (W3 m ρ c (Proc.devRef .tc main_v46))
      (W3 m ρ c (Proc.devRef .tc main_v47)) (W3 m ρ c (Proc.devRef .tc main_v48)) = _
  rw [in1_mean, in1_h, in1_wl, in1_wr, in1_b]

/-- THE RESULT buffer after the last stretch: the scores, flattened. -/
theorem result_eq (c : Dev nD) :
    W5 m ρ c (Proc.devRef .tc main_v50)
      = shapeCast _ (Cert.Sage.score (mean2 (hid (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))) (hid (m ((c : Thread nD τ).loc main_arg0)) (m ((c : Thread nD τ).loc main_arg1)) (m ((c : Thread nD τ).loc main_arg2)) (m ((c : Thread nD τ).loc main_arg3)) (m ((c : Thread nD τ).loc main_arg4)))
          (transpose S32x1 [1, 0] (m ((c : Thread nD τ).loc main_arg5)) transposes_S1x32_S32x1_1_0) (transpose S32x1 [1, 0] (m ((c : Thread nD τ).loc main_arg7)) transposes_S1x32_S32x1_1_0)
          (shapeCast S1x1 (m ((c : Thread nD τ).loc main_arg6)) shapeCasts_S1_S1x1)) shapeCasts_S50000x1_S50000 := by
  show StableHlo.after hostOps2 (W4 m ρ c) (Proc.devRef .tc main_v50) = _
  after_results_simp
  rw [W4_arr m ρ c 5, score_eq]
  rfl

end Cert.KernelIdeal.Host

end
-- ==== Proof.RefValue.lean ====
/-
  The reference's result as the two dense stages over the two neighbour means.

  The reference computes, for node features `x` and edges `e` (row 0 the sources, row 1 the destinations):
  the mean of the neighbours' features per destination (a gather by source, a scatter-add by destination, a division
  by the degree, at least one), the first dense stage rectified, the same mean of the hidden features, and the second
  dense stage under the logistic function, written out as 1 / (1 + exp (-z)). Here its composed term is folded
  back into those four pieces: the two means stay closed terms that nothing opens; each dense stage is read at an
  index, where the reference's (product + bias) + product is the specification's product + product + bias.
-/
import proofs.«100326_j90563680403608_1_alg».proof.Proof.Gen.ReferenceIdeal.Run
import proofs.«100326_j90563680403608_1_alg».proof.Proof.Gen.ReferenceIdeal.Read
import proofs.«100326_j90563680403608_1_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.Value Idealize.ShloMosaic Idealize.ShloMosaic.TcCoe Idealize.SL.Sem

/-- The mean over each node's incoming edges of the [50000, 128] table `x`: rows gathered by source, summed by
    destination, divided by the in-degree or by one where there is no edge. -/
def mean1 (x : FVec Ideal S50000x128 .f32) (e : IVec S2x800000 32) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

/-- The same mean of the [50000, 32] table `h`. -/
def mean2 (h : FVec Ideal S50000x32 .f32) (e : IVec S2x800000 32) : FVec Ideal S50000x32 .f32 :=
  Host.divf (Host.scatterAdd scatter_S50000x32_S800000x1_S800000x32_1_0_0_1 (broadcastInDim S50000x32 ![] bcast_S_S50000x32 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x32_S800000x1_S800000x32_1_0_n_n_0_1_132 h (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x32 ![0, 1] bcast_S50000x1_S50000x32_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

/-- The hidden features: the first dense stage over the mean of `x` and `x` itself. -/
def hid (x : FVec Ideal S50000x128 .f32) (e : IVec S2x800000 32) (w1l : FVec Ideal S32x128 .f32) (b1 : FVec Ideal S32 .f32)
    (w1r : FVec Ideal S32x128 .f32) : FVec Ideal S50000x32 .f32 :=
  Cert.Sage.hidden (mean1 x e) x (transpose S128x32 [1, 0] w1l transposes_S32x128_S128x32_1_0)
    (transpose S128x32 [1, 0] w1r transposes_S32x128_S128x32_1_0) (broadcastInDim S1x32 ![1] bcast_S32_S1x32_1 b1)

/-- The first stage's product read at (r, j): the contraction over the 128 shared columns. -/
theorem dot1_ix2 (l : FVec Ideal S50000x128 .f32) (w : FVec Ideal S128x32 .f32) (r : Fin 50000) (j : Fin 32) :
    Host.dotGeneral (F := Ideal) dot_S50000x128_S128x32_S50000x32_1_0_0_1_n_n none l w (ValueIdx.ix2 r j)
      = ∑ k : Fin 128, l (ValueIdx.ix2 r k) * w (ValueIdx.ix2 k j) := by
  simp only [Host.dotGeneral]
  rw [Ideal.dotGeneral_apply, ← Equiv.sum_comp (ValueIdx.contrEquiv1 dot_S50000x128_S128x32_S50000x32_1_0_0_1_n_n 128 rfl rfl).symm]
  refine Finset.sum_congr rfl fun k _ => ?_
  have hk := ValueIdx.contrEquiv1_symm_val dot_S50000x128_S128x32_S50000x32_1_0_0_1_n_n 128 rfl rfl k
  have el : dot_S50000x128_S128x32_S50000x32_1_0_0_1_n_n.lhsIdx (ValueIdx.ix2 r j) ((ValueIdx.contrEquiv1 dot_S50000x128_S128x32_S50000x32_1_0_0_1_n_n 128 rfl rfl).symm k) = ValueIdx.ix2 r k := funext fun a => Fin.ext (by
    match a with
    | ⟨0, _⟩ => exact Read.lhs_main_v24_0 _ _
    | ⟨1, _⟩ => exact (Read.lhs_main_v24_1 _ _).trans hk)
  have er : dot_S50000x128_S128x32_S50000x32_1_0_0_1_n_n.rhsIdx (ValueIdx.ix2 r j) ((ValueIdx.contrEquiv1 dot_S50000x128_S128x32_S50000x32_1_0_0_1_n_n 128 rfl rfl).symm k) = ValueIdx.ix2 k j := funext fun a => Fin.ext (by
    match a with
    | ⟨0, _⟩ => exact (Read.rhs_main_v24_0 _ _).trans hk
    | ⟨1, _⟩ => exact Read.rhs_main_v24_1 _ _)
  rw [el, er]

/-- The second stage's product read at (r, q): the contraction over the 32 hidden columns. -/
theorem dot2_ix2 (l : FVec Ideal S50000x32 .f32) (w : FVec Ideal S32x1 .f32) (r : Fin 50000) (q : Fin 1) :
    Host.dotGeneral (F := Ideal) dot_S50000x32_S32x1_S50000x1_1_0_0_1_n_n none l w (ValueIdx.ix2 r q)
      = ∑ k : Fin 32, l (ValueIdx.ix2 r k) * w (ValueIdx.ix2 k q) := by
  simp only [Host.dotGeneral]
  rw [Ideal.dotGeneral_apply, ← Equiv.sum_comp (ValueIdx.contrEquiv1 dot_S50000x32_S32x1_S50000x1_1_0_0_1_n_n 32 rfl rfl).symm]
  refine Finset.sum_congr rfl fun k _ => ?_
  have hk := ValueIdx.contrEquiv1_symm_val dot_S50000x32_S32x1_S50000x1_1_0_0_1_n_n 32 rfl rfl k
  have el : dot_S50000x32_S32x1_S50000x1_1_0_0_1_n_n.lhsIdx (ValueIdx.ix2 r q) ((ValueIdx.contrEquiv1 dot_S50000x32_S32x1_S50000x1_1_0_0_1_n_n 32 rfl rfl).symm k) = ValueIdx.ix2 r k := funext fun a => Fin.ext (by
    match a with
    | ⟨0, _⟩ => exact Read.lhs_main_v52_0 _ _
    | ⟨1, _⟩ => exact (Read.lhs_main_v52_1 _ _).trans hk)
  have er : dot_S50000x32_S32x1_S50000x1_1_0_0_1_n_n.rhsIdx (ValueIdx.ix2 r q) ((ValueIdx.contrEquiv1 dot_S50000x32_S32x1_S50000x1_1_0_0_1_n_n 32 rfl rfl).symm k) = ValueIdx.ix2 k q := funext fun a => Fin.ext (by
    match a with
    | ⟨0, _⟩ => exact (Read.rhs_main_v52_0 _ _).trans hk
    | ⟨1, _⟩ => exact Read.rhs_main_v52_1 _ _)
  rw [el, er]

/-- The first dense stage as the reference composes it, (product + bias) + product rectified against the zero array, is
    the specification's stage: entry by entry the two sums agree up to the order of the additions. -/
theorem stage1_eq (mean x : FVec Ideal S50000x128 .f32) (wl wr : FVec Ideal S128x32 .f32) (b : FVec Ideal S1x32 .f32) :
    maximumf (addf (addf (Host.dotGeneral (F := Ideal) dot_S50000x128_S128x32_S50000x32_1_0_0_1_n_n none mean wl)
        (broadcastInDim S50000x32 ![0, 1] bcast_S1x32_S50000x32_0_1 b))
        (Host.dotGeneral (F := Ideal) dot_S50000x128_S128x32_S50000x32_1_0_0_1_n_n none x wr))
      (broadcastInDim S50000x32 ![] bcast_S_S50000x32 (constant (F := Ideal) S_ .f32 0x00000000#32))
      = Cert.Sage.hidden mean x wl wr b := by
  funext i
  obtain ⟨r, j, rfl⟩ : ∃ (r : Fin 50000) (j : Fin 32), i = ValueIdx.ix2 r j := ⟨i 0, i 1, ValueIdx.eq_ix2 i⟩
  rw [Cert.Sage.hidden_ix2]
  unfold Cert.Sage.hiddenAt
  rw [ValueIdx.maximumf_apply, ValueIdx.addf_apply, ValueIdx.addf_apply, dot1_ix2, dot1_ix2]
  have hb : broadcastInDim S50000x32 ![0, 1] bcast_S1x32_S50000x32_0_1 b (ValueIdx.ix2 r j) = b (ValueIdx.ix2 (0 : Fin 1) j) :=
    broadcastInDim_apply _ bcast_S1x32_S50000x32_0_1 b _ _ (fun a => match a with
      | ⟨0, _⟩ => by show 0 = if (1 : Nat) = 1 then 0 else r.val; rw [if_pos rfl]
      | ⟨1, _⟩ => by show j.val = if (32 : Nat) = 1 then 0 else j.val; rw [if_neg (by decide)])
  have hz : broadcastInDim S50000x32 ![] bcast_S_S50000x32 (constant (F := Ideal) S_ .f32 0x00000000#32) (ValueIdx.ix2 r j) = 0 := by
    rw [broadcastInDim_apply _ bcast_S_S50000x32 _ _ ValueIdx.ix0 (fun a => a.elim0), ValueIdx.constant_apply,
      Ideal.ofBits_zero_f32]
  rw [hb, hz, add_right_comm]

/-- The second dense stage as the reference composes it, 1 / (1 + exp (-((product + bias) + product))), is the
    specification's stage: the logistic function is that quotient by definition, and the sums agree up to the order
    of the additions. -/
theorem stage2_eq (mean h : FVec Ideal S50000x32 .f32) (wl wr : FVec Ideal S32x1 .f32) (b : FVec Ideal S1x1 .f32) :
    Host.divf (broadcastInDim S50000x1 ![] bcast_S_S50000x1 (constant (F := Ideal) S_ .f32 0x3F800000#32))
      (addf (broadcastInDim S50000x1 ![] bcast_S_S50000x1 (constant (F := Ideal) S_ .f32 0x3F800000#32))
        (Host.exp (Host.negf (addf (addf (Host.dotGeneral (F := Ideal) dot_S50000x32_S32x1_S50000x1_1_0_0_1_n_n none mean wl)
          (broadcastInDim S50000x1 ![0, 1] bcast_S1x1_S50000x1_0_1 b))
          (Host.dotGeneral (F := Ideal) dot_S50000x32_S32x1_S50000x1_1_0_0_1_n_n none h wr)))))
      = Cert.Sage.score mean h wl wr b := by
  funext i
  obtain ⟨r, q, rfl⟩ : ∃ (r : Fin 50000) (q : Fin 1), i = ValueIdx.ix2 r q := ⟨i 0, i 1, ValueIdx.eq_ix2 i⟩
  obtain rfl : q = 0 := Subsingleton.elim _ _
  rw [Cert.Sage.score_ix2]
  unfold Cert.Sage.scoreAt Ideal.logistic
  have h1 : broadcastInDim S50000x1 ![] bcast_S_S50000x1 (constant (F := Ideal) S_ .f32 0x3F800000#32) (ValueIdx.ix2 r (0 : Fin 1)) = 1 := by
    rw [ValueIdx.broadcastInDim_scalar_apply, ValueIdx.constant_apply, Ideal.ofBits_one_f32]
  have hb : broadcastInDim S50000x1 ![0, 1] bcast_S1x1_S50000x1_0_1 b (ValueIdx.ix2 r (0 : Fin 1)) = b (ValueIdx.ix2 (0 : Fin 1) (0 : Fin 1)) :=
    broadcastInDim_apply _ bcast_S1x1_S50000x1_0_1 b _ _ (fun a => match a with
      | ⟨0, _⟩ => by show 0 = if (1 : Nat) = 1 then 0 else r.val; rw [if_pos rfl]
      | ⟨1, _⟩ => by show 0 = if (1 : Nat) = 1 then 0 else 0; rw [if_pos rfl])
  rw [ValueIdx.hostDivf_apply, ValueIdx.addf_apply, h1]
  show Ideal.div 1 (1 + Ideal.exp (-(addf (addf (Host.dotGeneral (F := Ideal) dot_S50000x32_S32x1_S50000x1_1_0_0_1_n_n none mean wl)
          (broadcastInDim S50000x1 ![0, 1] bcast_S1x1_S50000x1_0_1 b))
          (Host.dotGeneral (F := Ideal) dot_S50000x32_S32x1_S50000x1_1_0_0_1_n_n none h wr) (ValueIdx.ix2 r (0 : Fin 1))))) = _
  rw [ValueIdx.addf_apply, ValueIdx.addf_apply, dot2_ix2, dot2_ix2, hb, add_right_comm]

/-- The reference's result is the second dense stage over the mean of the hidden features and the hidden features,
    flattened to [50000]. -/
theorem res_eq (m : (ℓ : Loc nD τ sig) → Buf (Elt Ideal) ℓ) (c : Dev nD) :
    res_main_v65 (F := Ideal) m c
      = shapeCast _ (Cert.Sage.score
          (mean2 (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)))
          (hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (transpose S32x1 [1, 0] (m ((c.tc : Thread nD τ).loc main_arg5)) transposes_S1x32_S32x1_1_0)
          (transpose S32x1 [1, 0] (m ((c.tc : Thread nD τ).loc main_arg7)) transposes_S1x32_S32x1_1_0)
          (broadcastInDim S1x1 ![1] bcast_S1_S1x1_1 (m ((c.tc : Thread nD τ).loc main_arg6))))
        shapeCasts_S50000x1_S50000 := by
  unfold hid
  rw [← stage1_eq, ← stage2_eq]
  unfold res_main_v65 mean1 mean2
  rfl

end Cert.ReferenceIdeal.RefValue

end
-- ==== Proof.LibRowLayout.lean ====
/-
  A vector laid out as a one-row matrix, two ways: by a broadcast that puts its axis second and adds a leading unit
  axis, or by a reshape to [1, a]. Entry (0, j) of either is entry j of the vector, so the two matrices are equal.
-/
import Idealize.ShloMosaic.Lib.ValueLayout
import Idealize.ShloMosaic.Lib.ValueIdx
import Idealize.ShloMosaic.Lib.Pipeline.Value

noncomputable section

namespace Cert.Sage

open Idealize.ShloMosaic Idealize.ShloMosaic.ValueIdx

/-- For any extent `a` and any element type: the [1, a] matrix obtained from an [a] vector by `broadcast_in_dim` with
    `dims = [1]` equals the one obtained by reshaping it to [1, a]; entry (u, j) of either is entry j of the vector. -/
theorem rowBcast_eq_rowCast {α : Type} {a : ℕ} (x : (⟨1, ![a]⟩ : Shape).Idx → α)
    (hb : (⟨1, ![a]⟩ : Shape).BroadcastsInDim ⟨2, ![1, a]⟩ (![1] : Fin (⟨1, ![a]⟩ : Shape).rank → Fin (⟨2, ![1, a]⟩ : Shape).rank))
    (hc : (⟨1, ![a]⟩ : Shape).ShapeCasts ⟨2, ![1, a]⟩) :
    broadcastInDim ⟨2, ![1, a]⟩ ![1] hb x = shapeCast ⟨2, ![1, a]⟩ x hc := by
  funext i
  obtain ⟨u, j, rfl⟩ : ∃ (u : Fin 1) (j : Fin a), i = ix2 u j := ⟨i 0, i 1, eq_ix2 i⟩
  rw [shapeCast_a_1a_apply]
  exact broadcastInDim_apply _ hb x _ (ix1 j) (fun d => match d with
    | ⟨0, _⟩ => by
      have hj := j.isLt
      show j.val = if a = 1 then 0 else j.val
      split <;> omega)

end Cert.Sage

end
-- ==== Proof.lean ====
/-
  The certificate: a two-layer neighbour-mean graph convolution whose two dense stages are tiled kernels, against
  the same network written with whole-array operations.

  Both programs compute, for node features `x` and edges `e`,
      H   = max (mean₁(x, e) · W1lᵀ + x · W1rᵀ + b1) 0,
      out = logistic (mean₂(H, e) · W2lᵀ + H · W2rᵀ + b2),
  where each mean gathers rows by edge source, sums them by edge destination and divides by the in-degree (at
  least one). The kernel program runs each dense stage over ten row blocks of 5000 and adds the bias last; the
  reference adds it between the two products and spells the logistic function as 1 / (1 + exp (-z)). On the extended
  reals the products are the same finite sums, addition is commutative and associative whatever the summands, and the
  logistic function is that quotient by definition, so the results agree entry by entry for every input: the
  precondition is never opened. The two means are the same closed terms on both sides and are never opened either.

  The three frames are the generated ones (the reference's is its generated run with the result dropped); the ideal
  pass rewrote nothing, so `preserves` is `True`; the value claim joins the kernel program's run, its result buffer
  read off the last host stretch, with the reference's generated run.
-/
import proofs.«100326_j90563680403608_1_alg».proof.Defs
import proofs.«100326_j90563680403608_1_alg».proof.Proof.Gen.Kernel
import proofs.«100326_j90563680403608_1_alg».proof.Proof.Gen.Kernel.Skeleton
import proofs.«100326_j90563680403608_1_alg».proof.Proof.Gen.Kernel.Launch
import proofs.«100326_j90563680403608_1_alg».proof.Proof.Gen.Kernel.Points
import proofs.«100326_j90563680403608_1_alg».proof.Proof.Gen.Kernel.Frame
import proofs.«100326_j90563680403608_1_alg».proof.Proof.Gen.KernelIdeal
import proofs.«100326_j90563680403608_1_alg».proof.Proof.Gen.KernelIdeal.Skeleton
import proofs.«100326_j90563680403608_1_alg».proof.Proof.Gen.KernelIdeal.Launch
import proofs.«100326_j90563680403608_1_alg».proof.Proof.Gen.KernelIdeal.Points
import proofs.«100326_j90563680403608_1_alg».proof.Proof.Gen.KernelIdeal.Frame
import proofs.«100326_j90563680403608_1_alg».proof.Proof.Gen.ReferenceIdeal
import proofs.«100326_j90563680403608_1_alg».proof.Proof.Gen.Pre_finite_inputs
import proofs.«100326_j90563680403608_1_alg».proof.Proof.Gen.ReferenceIdeal.Run
import proofs.«100326_j90563680403608_1_alg».proof.Proof.Gen.ReferenceIdeal.Read
import proofs.«100326_j90563680403608_1_alg».proof.Proof.KernelRun
import proofs.«100326_j90563680403608_1_alg».proof.Proof.KHost
import proofs.«100326_j90563680403608_1_alg».proof.Proof.RefValue
import proofs.«100326_j90563680403608_1_alg».proof.Proof.LibRowLayout
import Idealize.ShloMosaic.Adequacy
import Idealize.ShloMosaic.Init

noncomputable section

namespace Cert.Proof

open Idealize.ShloMosaic Idealize.ShloMosaic.TcCoe Idealize.SL.Sem

/-! ## The two programs' pieces are the same terms -/

/-- The neighbour mean of the features is one term in both programs: the same operations over the same records. -/
theorem mean1_eq (x : FVec Ideal Cert.KernelIdeal.S50000x128 .f32) (e : IVec Cert.KernelIdeal.S2x800000 32) :
    Cert.ReferenceIdeal.RefValue.mean1 x e = Cert.KernelIdeal.Host.mean1 x e := rfl

/-- So is the neighbour mean of the hidden features. -/
theorem mean2_eq (h : FVec Ideal Cert.KernelIdeal.S50000x32 .f32) (e : IVec Cert.KernelIdeal.S2x800000 32) :
    Cert.ReferenceIdeal.RefValue.mean2 h e = Cert.KernelIdeal.Host.mean2 h e := rfl

/-- The hidden features agree: the bias row is the same matrix whether broadcast or reshaped. -/
theorem hid_eq (x : FVec Ideal Cert.KernelIdeal.S50000x128 .f32) (e : IVec Cert.KernelIdeal.S2x800000 32)
    (w1l : FVec Ideal Cert.KernelIdeal.S32x128 .f32) (b1 : FVec Ideal Cert.KernelIdeal.S32 .f32) (w1r : FVec Ideal Cert.KernelIdeal.S32x128 .f32) :
    Cert.ReferenceIdeal.RefValue.hid x e w1l b1 w1r = Cert.KernelIdeal.Host.hid x e w1l b1 w1r := by
  unfold Cert.ReferenceIdeal.RefValue.hid Cert.KernelIdeal.Host.hid
  rw [mean1_eq, Cert.Sage.rowBcast_eq_rowCast b1 _ Cert.KernelIdeal.Gen.shapeCasts_S32_S1x32]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel program's result buffer ends at the flattened scores over the launch arrays; the reference's run ends
    at its composed term, which is the same scores: the means and the transposed weights are the same terms, and the
    bias rows the same matrices. -/
theorem algebraic : Cert.algebraic_KernelIdeal_ReferenceIdeal := by
  intro m ρ m' ρ' _ hagree
  refine ⟨fun c => Cert.KernelIdeal.Gen.W5 m ρ c (Proc.devRef .tc Cert.KernelIdeal.main_v50),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v65 m' c
    = Cert.KernelIdeal.Gen.W5 m ρ c (Proc.devRef .tc Cert.KernelIdeal.main_v50)
  rw [Cert.ReferenceIdeal.RefValue.res_eq, Cert.KernelIdeal.Host.result_eq, h0, h1, h2, h3, h4, h5, h6, h7,
    hid_eq, mean2_eq, Cert.Sage.rowBcast_eq_rowCast _ _ Cert.KernelIdeal.Gen.shapeCasts_S1_S1x1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
